-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S4096x8192 .f32) (main_arg2 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S4096x8192 .f32 := Host.absf main_arg2
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  main_v13
-- ==== Kernel.lean ====
abbrev S4096x8192 : Shape := ⟨2, ![4096, 8192]⟩
abbrev S4096x4096 : Shape := ⟨2, ![4096, 4096]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x8192, .f32⟩
  | .hbm, ⟨3, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x8192.size a
  hwx0_0 : ∀ i : grid0.Coords, EltTy.bits .f32 = 32 ∨ (Rect.block (s := S4096x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x8192.size a
  hwx0_1 : ∀ i : grid0.Coords, EltTy.bits .f32 = 32 ∨ (Rect.block (s := S4096x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x8192.size a
  hwx0_2 : ∀ i : grid0.Coords, EltTy.bits .f32 = 32 ∨ (Rect.block (s := S4096x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x4096, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x8192_S4096x8192_S4096x4096_1_1_0_0_n_n_wf : DotDims.WF S4096x8192 S4096x8192 S4096x4096 [1] [1] [0] [0] [] []

variable [Facts₀]

def dot_S4096x8192_S4096x8192_S4096x4096_1_1_0_0_n_n : DotDims S4096x8192 S4096x8192 S4096x4096 where
  lhsContracting := [1]
  rhsContracting := [1]
  lhsNonContracting := [0]
  rhsNonContracting := [0]
  lhsBatch := []
  rhsBatch := []
  wf := dot_S4096x8192_S4096x8192_S4096x4096_1_1_0_0_n_n_wf

class Facts : Prop extends Facts₀ where

variable [Facts]
-- ==== Proof.Cases.lean ====
/-
  What each of the body's three control cases leaves behind, as values.

  At the first step of a reduction (case A) the body stores the zero block into the accumulator, reads it back, and
  stores the update of it. At a middle step (case B) it stores the update of what the step before left. At the last
  step (case C) it does the same and then copies the accumulator, read back, into the output block. So in every case the
  accumulator ends at the update payload over its three input blocks and the value it started from (zero in case A),
  and in case C the output block ends at that same value.
-/
import proofs.«144180_j12120397709336_1_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen Idealize.ShloMosaic Idealize.ShloMosaic.TcCoe Idealize.ShloMosaic.Tactic
open Idealize.SL.Sem

variable {F : FTy → Type} [FloatOps F]

/-- Every store and load of the body is at the block's origin. -/
theorem origin : (![0, 0] : Fin 2 → Nat) = fun _ => 0 := funext fun a => by fin_cases a <;> rfl

/-- Case A: the accumulator ends at the update of the zero block. -/
theorem acc_A (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i) (x0 x1 x2 : Vec F S1024x1024 .f32) :
    sout0_A_0 c i a3 h3 a4 h4 a5 h5 a6 h6 a7 h7 hc0 hc1 x0 x1 x2 = k0_pay2 x0 x1 x2 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, h3.read_unread, h4.read_unread, h5.read_unread, View.ld_unit_zero (S := S1024x1024) origin]

/-- Case B: the accumulator ends at the update of what it held. -/
theorem acc_B (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i) (x0 x1 x2 xs0 : Vec F S1024x1024 .f32) :
    sout0_B_0 c i a3 h3 a4 h4 a5 h5 a6 h6 a7 h7 hc0 hc1 x0 x1 x2 xs0 = k0_pay2 x0 x1 x2 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero origin]
  simp only [View.readAt_eq_ld, h3.read_unread, h4.read_unread, h5.read_unread, h7.read_unread,
    View.ld_unit_zero (S := S1024x1024) origin]

/-- Case C: the accumulator ends at the update of what it held, -/
theorem acc_C (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i) (x0 x1 x2 xs0 : Vec F S1024x1024 .f32) :
    sout0_C_0 c i a3 h3 a4 h4 a5 h5 a6 h6 a7 h7 hc0 hc1 x0 x1 x2 xs0 = k0_pay2 x0 x1 x2 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero origin]
  simp only [View.readAt_eq_ld, h3.read_unread, h4.read_unread, h5.read_unread, h7.read_unread,
    View.ld_unit_zero (S := S1024x1024) origin]

/-- and the output block at the same value: the accumulator read back after that store. -/
theorem out_C (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i) (x0 x1 x2 xs0 : Vec F S1024x1024 .f32) :
    out0_C_3 c i a3 h3 a4 h4 a5 h5 a6 h6 a7 h7 hc0 hc1 x0 x1 x2 xs0 = k0_pay2 x0 x1 x2 xs0 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero origin, View.readCov_unit_zero (S := S1024x1024) _ origin]
  simp only [View.readAt_eq_ld, h3.read_unread, h4.read_unread, h5.read_unread, h7.read_unread,
    View.ld_unit_zero (S := S1024x1024) origin]

end Cert.KernelIdeal.Cases

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.Entry.lean ====
/-
  The two values the kernel body stores into its accumulator, read at an entry over the extended reals.

  The reset stores the zero block. The update stores, at entry (p, q), the accumulator's old value there plus the
  product of the point's three input blocks: the sum over the 1024 shared offsets r of x0(p, r) · (x1(q, r) · x2(q, r)).
  Narrowing a block to a shorter float format before the product changes nothing over the extended reals, and the
  product into a zero accumulator is the plain sum.
-/
import proofs.«144180_j12120397709336_1_alg».proof.Proof.Gen.KernelIdeal.Skeleton
import proofs.«144180_j12120397709336_1_alg».proof.Proof.LibDotT
import Idealize.ShloMosaic.Lib.Pipeline.Value
import Idealize.ShloMosaic.Lib.ValueIdx
import Idealize.ShloMosaic.PureOps.Ideal.Laws

noncomputable section

open scoped BigOperators

namespace Cert.KernelIdeal.Entry

open Cert.KernelIdeal Cert.KernelIdeal.Gen Idealize.ShloMosaic Idealize.ShloMosaic.ValueIdx

/-- The block the reset stores is zero at every entry. -/
theorem reset_at (j : S1024x1024.Idx) : k0_pay1 (F := Ideal) j = 0 := by
  unfold k0_pay1
  simp only [shapeCast_self, broadcast_apply]
  exact Ideal.ofBits_zero_f32

/-- The block the update stores, at entry (p, q): the old value plus the three blocks' product summed over the shared
    offset. -/
theorem update_at (x0 x1 x2 acc : Vec Ideal S1024x1024 .f32) (p q : Fin 1024) :
    k0_pay2 (F := Ideal) x0 x1 x2 acc (ix2 p q)
      = acc (ix2 p q) + ∑ r : Fin 1024, x0 (ix2 p r) * (x1 (ix2 q r) * x2 (ix2 q r)) := by
  unfold k0_pay2
  simp only [shapeCast_self]
  refine (addf_apply _ _ _).trans (congrArg (acc (ix2 p q) + ·) ?_)
  refine (Cert.LibDotT.matmul_zero_at_T dot_S1024x1024_S1024x1024_S1024x1024_1_1_0_0_n_n rfl rfl rfl rfl rfl rfl none
    _ _ p q).trans ?_
  simp only [truncf_apply, mulf_apply]

end Cert.KernelIdeal.Entry

end
-- ==== Proof.Spec.lean ====
/-
  The masked dense layer as one function of its three arrays, and the law that lets its sum over the 8192 shared
  coordinates be taken in eight stretches of 1024.

  Entry (b, o) of the layer is the sum over i of x(b, i) · (w(o, i) · k(o, i)). Splitting the shared coordinate
  as i = 1024·s + r re-indexes that one sum as a sum over the stretch s of a sum over the offset r. Only that
  addition is commutative and associative is used, so the law holds on the extended reals with no finiteness assumed.
-/
import Idealize.ShloMosaic.PureOps.Ideal
import Idealize.ShloMosaic.Lib.ValueIdx

noncomputable section

open scoped BigOperators

namespace Cert.MaskedDense

open Idealize.ShloMosaic Idealize.ShloMosaic.ValueIdx

/-- Offset `r` of the stretch numbered `s` (taken modulo 8, so that every natural names a stretch). -/
def col (s : ℕ) (r : Fin 1024) : Fin 8192 := ⟨1024 * (s % 8) + r.val, by omega⟩

/-- Offset `p` of the band of 1024 rows numbered `a` (taken modulo 4). -/
def row (a : ℕ) (p : Fin 1024) : Fin 4096 := ⟨1024 * (a % 4) + p.val, by omega⟩

/-- A sum over the 8192 shared coordinates, taken stretch by stretch. -/
theorem sum_by_stretches {β : Type*} [AddCommMonoid β] (f : Fin 8192 → β) :
    ∑ i, f i = ∑ s ∈ Finset.range 8, ∑ r : Fin 1024, f (col s r) := by
  rw [Finset.sum_range (fun s => ∑ r : Fin 1024, f (col s r))]
  rw [← Equiv.sum_comp (finProdFinEquiv : Fin 8 × Fin 1024 ≃ Fin (8 * 1024)) (f : Fin (8 * 1024) → β)]
  rw [Fintype.sum_prod_type]
  refine Finset.sum_congr rfl fun s _ => Finset.sum_congr rfl fun r _ => congrArg f (Fin.ext ?_)
  show r.val + 1024 * s.val = 1024 * (s.val % 8) + r.val
  have := s.isLt
  omega

variable (x w k : FVec Ideal ⟨2, ![4096, 8192]⟩ .f32)

/-- The layer: entry (b, o) is the sum over the shared coordinate of x(b, i) · (w(o, i) · k(o, i)). -/
def dense : FVec Ideal ⟨2, ![4096, 4096]⟩ .f32 :=
  fun j => ∑ i : Fin 8192, x (ix2 (j 0) i) * (w (ix2 (j 1) i) * k (ix2 (j 1) i))

/-- The share of stretch `s` in entry (b, o). -/
def part (s : ℕ) (b o : Fin 4096) : Ideal .f32 :=
  ∑ r : Fin 1024, x (ix2 b (col s r)) * (w (ix2 o (col s r)) * k (ix2 o (col s r)))

/-- An entry of the layer is the sum of its eight stretches' shares. -/
theorem dense_eq_parts (b o : Fin 4096) : dense x w k (ix2 b o) = ∑ s ∈ Finset.range 8, part x w k s b o := by
  unfold dense part
  exact sum_by_stretches fun i => x (ix2 b i) * (w (ix2 o i) * k (ix2 o i))

end Cert.MaskedDense

end
-- ==== Proof.Blocks.lean ====
/-
  Where each window's block sits at a grid point, and the three input blocks read at an entry.

  The grid is 4 × 4 × 8, walked with the last axis fastest, so point t has coordinates (t / 32, t / 8 mod 4, t mod 8):
  a band of 1024 rows of x, a band of 1024 rows of the weight and of the mask, and a stretch of 1024 shared
  coordinates. The block of x at point t is band t / 32 by stretch t; the blocks of the weight and of the mask are band
  t / 8 by stretch t; the output's block is band t / 32 by band t / 8. An entry of a block is the entry of the array at
  the band's (or stretch's) origin plus the offset inside the block.
-/
import proofs.«144180_j12120397709336_1_alg».proof.Proof.Gen.KernelIdeal.Frame
import proofs.«144180_j12120397709336_1_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.MaskedDense Idealize.ShloMosaic Idealize.ShloMosaic.TcCoe
open Idealize.ShloMosaic.ValueIdx Idealize.SL.Sem

variable {F : FTy → Type} [FloatOps F]
variable (m : (ℓ : Loc nD τ sig) → Buf (Elt F) ℓ)

/-- The block indices of the four windows at every point, decided over the grid. -/
theorem where_x : ∀ t : Fin cfg0.N, win0_0.index t (0 : Fin 2) = t.val / 32 ∧ win0_0.index t (1 : Fin 2) = t.val % 8 :=
  (by decide +kernel : ∀ t : Fin grid0.N, _)
theorem where_w : ∀ t : Fin cfg0.N, win0_1.index t (0 : Fin 2) = t.val / 8 % 4 ∧ win0_1.index t (1 : Fin 2) = t.val % 8 :=
  (by decide +kernel : ∀ t : Fin grid0.N, _)
theorem where_k : ∀ t : Fin cfg0.N, win0_2.index t (0 : Fin 2) = t.val / 8 % 4 ∧ win0_2.index t (1 : Fin 2) = t.val % 8 :=
  (by decide +kernel : ∀ t : Fin grid0.N, _)
theorem where_out : ∀ t : Fin cfg0.N, win0_3.index t (0 : Fin 2) = t.val / 32 ∧ win0_3.index t (1 : Fin 2) = t.val / 8 % 4 :=
  (by decide +kernel : ∀ t : Fin grid0.N, _)

/-- The three argument arrays as the region finds them, at their literal type. -/
abbrev xarr (c : Dev nD) : Vec F S4096x8192 .f32 := V m c main_arg0
abbrev warr (c : Dev nD) : Vec F S4096x8192 .f32 := V m c main_arg1
abbrev karr (c : Dev nD) : Vec F S4096x8192 .f32 := V m c main_arg2

/-- The three input blocks at a point, at their literal type. -/
abbrev xblk (c : Dev nD) (t : Fin cfg0.N) : Vec F S1024x1024 .f32 := iblk m c 0 t
abbrev wblk (c : Dev nD) (t : Fin cfg0.N) : Vec F S1024x1024 .f32 := iblk m c 1 t
abbrev kblk (c : Dev nD) (t : Fin cfg0.N) : Vec F S1024x1024 .f32 := iblk m c 2 t

/-- Entry (p, r) of x's block at point t is x at row p of band t / 32 and offset r of stretch t. -/
theorem xblk_at (c : Dev nD) (t : Fin cfg0.N) (p r : Fin 1024) :
    xblk m c t (ix2 p r) = xarr m c (ix2 (row (t.val / 32) p) (col t.val r)) := by
  have hN : t.val < 128 := lt_of_lt_of_eq t.isLt N_0
  obtain ⟨e0, e1⟩ := where_x t
  unfold xblk iblk
  rw [View.read_apply]
  show V m c main_arg0 _ = V m c main_arg0 _
  congr 1
  funext a
  apply Fin.ext
  match a with
  | ⟨0, _⟩ => show win0_0.index t (0 : Fin 2) * 1024 + 1 * p.val = 1024 * (t.val / 32 % 4) + p.val; omega
  | ⟨1, _⟩ => show win0_0.index t (1 : Fin 2) * 1024 + 1 * r.val = 1024 * (t.val % 8) + r.val; omega

/-- Entry (q, r) of the weight's block at point t is the weight at row q of band t / 8 and offset r of stretch t. -/
theorem wblk_at (c : Dev nD) (t : Fin cfg0.N) (q r : Fin 1024) :
    wblk m c t (ix2 q r) = warr m c (ix2 (row (t.val / 8) q) (col t.val r)) := by
  obtain ⟨e0, e1⟩ := where_w t
  unfold wblk iblk
  rw [View.read_apply]
  show V m c main_arg1 _ = V m c main_arg1 _
  congr 1
  funext a
  apply Fin.ext
  match a with
  | ⟨0, _⟩ => show win0_1.index t (0 : Fin 2) * 1024 + 1 * q.val = 1024 * (t.val / 8 % 4) + q.val; omega
  | ⟨1, _⟩ => show win0_1.index t (1 : Fin 2) * 1024 + 1 * r.val = 1024 * (t.val % 8) + r.val; omega

/-- Entry (q, r) of the mask's block at point t is the mask at row q of band t / 8 and offset r of stretch t. -/
theorem kblk_at (c : Dev nD) (t : Fin cfg0.N) (q r : Fin 1024) :
    kblk m c t (ix2 q r) = karr m c (ix2 (row (t.val / 8) q) (col t.val r)) := by
  obtain ⟨e0, e1⟩ := where_k t
  unfold kblk iblk
  rw [View.read_apply]
  show V m c main_arg2 _ = V m c main_arg2 _
  congr 1
  funext a
  apply Fin.ext
  match a with
  | ⟨0, _⟩ => show win0_2.index t (0 : Fin 2) * 1024 + 1 * q.val = 1024 * (t.val / 8 % 4) + q.val; omega
  | ⟨1, _⟩ => show win0_2.index t (1 : Fin 2) * 1024 + 1 * r.val = 1024 * (t.val % 8) + r.val; omega

end Cert.KernelIdeal.Blocks

end
-- ==== Proof.Fold.lean ====
/-
  What the accumulator holds after each grid point, and at the end of a reduction.

  The 128 points fall into 16 runs of 8 consecutive points, one run per output block: the run's first point resets the
  accumulator, every point adds its share — at entry (p, q) the sum, over the 1024 offsets of the point's stretch, of
  x · (w · k) at row p of the point's band of x and row q of its band of the weight and the mask. So after the point at
  offset j of its run the accumulator holds zero plus the shares of the run's points 0 … j, and after the run's last
  point the eight stretches' shares together: the layer's entry, by the stretch law.
-/
import proofs.«144180_j12120397709336_1_alg».proof.Proof.Gen.KernelIdeal.Value
import proofs.«144180_j12120397709336_1_alg».proof.Proof.Cases
import proofs.«144180_j12120397709336_1_alg».proof.Proof.Entry
import proofs.«144180_j12120397709336_1_alg».proof.Proof.Blocks
import proofs.«144180_j12120397709336_1_alg».proof.Proof.Spec
import Idealize.ShloMosaic.Lib.Pipeline.Value
import Idealize.ShloMosaic.Lib.ValueIdx

noncomputable section

open scoped BigOperators

namespace Cert.KernelIdeal.Fold

open Cert.KernelIdeal Cert.KernelIdeal.Gen Cert.KernelIdeal.Blocks Cert.MaskedDense
open Idealize.ShloMosaic Idealize.ShloMosaic.TcCoe Idealize.ShloMosaic.ValueIdx Idealize.SL.Sem

variable (m : (ℓ : Loc nD τ sig) → Buf (Elt Ideal) ℓ)

/-- The share point `n` adds at entry `j` of its output block: stretch `n`'s share in the layer's entry at row
    `j 0` of band `n / 32` and column `j 1` of band `n / 8`. -/
def share (c : Dev nD) (n : ℕ) (j : S1024x1024.Idx) : Ideal .f32 :=
  part (xarr m c) (warr m c) (karr m c) n (row (n / 32) (j 0)) (row (n / 8) (j 1))

theorem share_at (c : Dev nD) (n : ℕ) (p q : Fin 1024) :
    share m c n (ix2 p q) = part (xarr m c) (warr m c) (karr m c) n (row (n / 32) p) (row (n / 8) q) := rfl

/-- The product of a point's three blocks at entry (p, q) is the point's share there. -/
theorem product_at (c : Dev nD) (t : Fin cfg0.N) (p q : Fin 1024) :
    ∑ r : Fin 1024, xblk m c t (ix2 p r) * (wblk m c t (ix2 q r) * kblk m c t (ix2 q r)) = share m c t.val (ix2 p q) := by
  rw [share_at]
  unfold part
  refine Finset.sum_congr rfl fun r _ => ?_
  rw [xblk_at, wblk_at, kblk_at]

/-- At a run's first point the accumulator ends at zero plus the point's share, whatever it held. -/
theorem step_first (c : Dev nD) (n : ℕ) (hb : n < cfg0.N) (h0 : n % 8 = 0) (acc : Vec Ideal S1024x1024 .f32)
    (j : S1024x1024.Idx) : Value.scAt0_0 m c n hb acc j = 0 + share m c n j := by
  obtain ⟨p, q, rfl⟩ : ∃ (p q : Fin 1024), j = ix2 p q := ⟨j 0, j 1, eq_ix2 j⟩
  have h1 : ¬n % 8 = 7 := by omega
  unfold Value.scAt0_0
  rw [dif_pos h0, dif_neg h1, Cases.acc_A]
  refine (Entry.update_at (xblk m c ⟨n, hb⟩) (wblk m c ⟨n, hb⟩) (kblk m c ⟨n, hb⟩) (k0_pay1 (F := Ideal)) p q).trans ?_
  rw [Entry.reset_at, product_at]

/-- At every later point of a run it ends at what it held plus the point's share. -/
theorem step_later (c : Dev nD) (n : ℕ) (hb : n < cfg0.N) (h0 : ¬n % 8 = 0) (acc : Vec Ideal S1024x1024 .f32)
    (j : S1024x1024.Idx) : Value.scAt0_0 m c n hb acc j = acc j + share m c n j := by
  obtain ⟨p, q, rfl⟩ : ∃ (p q : Fin 1024), j = ix2 p q := ⟨j 0, j 1, eq_ix2 j⟩
  unfold Value.scAt0_0
  rw [dif_neg h0]
  by_cases h1 : n % 8 = 7
  · rw [dif_pos h1, Cases.acc_C]
    refine (Entry.update_at (xblk m c ⟨n, hb⟩) (wblk m c ⟨n, hb⟩) (kblk m c ⟨n, hb⟩) acc p q).trans ?_
    rw [product_at]
  · rw [dif_neg h1, Cases.acc_B]
    refine (Entry.update_at (xblk m c ⟨n, hb⟩) (wblk m c ⟨n, hb⟩) (kblk m c ⟨n, hb⟩) acc p q).trans ?_
    rw [product_at]

/-- After point `t` the accumulator holds zero plus the shares of its run's points up to `t`. -/
theorem acc_after (c : Dev nD) (t : Fin cfg0.N) (j : S1024x1024.Idx) :
    (outsAt0 m c t.val t.isLt).2 j = 0 + ∑ s ∈ Finset.range (t.val % 8 + 1), share m c (8 * (t.val / 8) + s) j := by
  rw [Value.soutsAt0_0_eq m c t]
  exact Pipeline.accAt_add_apply (ι := S1024x1024.Idx) (β := Ideal .f32) _ _ (fun _ => 0) (share m c) (8 * (t.val / 8)) 7
    (fun h i => step_first m c _ h (by omega) _ i)
    (fun n h acc i hlt hle => step_later m c n h (by omega) acc i)
    (t.val % 8) (by omega) _ j

/-- After a run's last point the accumulator holds the layer's entries of the run's output block. -/
theorem acc_last (c : Dev nD) (t : Fin cfg0.N) (h7 : t.val % 8 = 7) (j : S1024x1024.Idx) :
    (outsAt0 m c t.val t.isLt).2 j
      = dense (xarr m c) (warr m c) (karr m c) (ix2 (row (t.val / 32) (j 0)) (row (t.val / 8) (j 1))) := by
  obtain ⟨p, q, rfl⟩ : ∃ (p q : Fin 1024), j = ix2 p q := ⟨j 0, j 1, eq_ix2 j⟩
  rw [acc_after, h7, zero_add]
  show _ = dense (xarr m c) (warr m c) (karr m c) (ix2 (row (t.val / 32) p) (row (t.val / 8) q))
  rw [dense_eq_parts]
  refine Finset.sum_congr rfl fun s hs => ?_
  have hs' : s < 8 := Finset.mem_range.mp hs
  have ec : ∀ r : Fin 1024, col (8 * (t.val / 8) + s) r = col s r := fun r => Fin.ext (by
    show 1024 * ((8 * (t.val / 8) + s) % 8) + r.val = 1024 * (s % 8) + r.val
    omega)
  have eb : row ((8 * (t.val / 8) + s) / 32) p = row (t.val / 32) p := Fin.ext (by
    show 1024 * ((8 * (t.val / 8) + s) / 32 % 4) + p.val = 1024 * (t.val / 32 % 4) + p.val
    omega)
  have eo : row ((8 * (t.val / 8) + s) / 8) q = row (t.val / 8) q := Fin.ext (by
    show 1024 * ((8 * (t.val / 8) + s) / 8 % 4) + q.val = 1024 * (t.val / 8 % 4) + q.val
    omega)
  rw [share_at]
  unfold part
  simp only [ec, eb, eo]

end Cert.KernelIdeal.Fold

end
-- ==== Proof.Final.lean ====
/-
  The kernel's result array after the run: the layer of the three argument arrays.

  The output block is written back only at a run's last point, and what that point hands over is the accumulator it has
  just copied: the layer's entries at band t / 32 of the rows and band t / 8 of the columns — the block of the layer the
  window addresses there. The sixteen written blocks tile the 4096 × 4096 array (entry (b, o) lies in the block written
  at point 32·(b / 1024) + 8·(o / 1024) + 7), so the array ends holding the layer everywhere.
-/
import proofs.«144180_j12120397709336_1_alg».proof.Proof.Fold

noncomputable section

namespace Cert.KernelIdeal.Final

open Cert.KernelIdeal Cert.KernelIdeal.Gen Cert.KernelIdeal.Blocks Cert.MaskedDense
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The layer of the argument arrays as the region finds them. -/
abbrev layer (c : Dev nD) : Vec Ideal S4096x4096 .f32 := dense (xarr m c) (warr m c) (karr m c)

/-- At a run's last point the output block holds what the accumulator holds. -/
theorem out_is_acc (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  rw [Cases.out_C, Cases.acc_C]

/-- What a write-back writes is the layer read through the window's block. -/
theorem flushed_eq (c : Dev nD) (t : Fin cfg0.N) (hf : (cfg0.win 3).flush t = true) :
    (dats m 0 c).flushed 3 t = ((cfg0.win 3).blk t).view.read (Elt Ideal) (layer m c) := by
  have h7 : t.val % 8 = 7 := (flush0_3 t).mp hf
  have hN : t.val < 128 := lt_of_lt_of_eq t.isLt N_0
  obtain ⟨e0, e1⟩ := where_out t
  rw [Value.flushed3, out_is_acc m c t h7]
  funext j
  show (outsAt0 m c t.val t.isLt).2 j = layer m c (((cfg0.win 3).blk t).view.emb j)
  refine (Fold.acc_last m c t h7 j).trans ?_
  show layer m c _ = layer m c _
  congr 1
  funext a
  apply Fin.ext
  match a with
  | ⟨0, _⟩ => show 1024 * (t.val / 32 % 4) + (j 0).val = win0_3.index t (0 : Fin 2) * 1024 + 1 * (j 0).val; omega
  | ⟨1, _⟩ => show 1024 * (t.val / 8 % 4) + (j 1).val = win0_3.index t (1 : Fin 2) * 1024 + 1 * (j 1).val; omega

/-- The result array ends holding the layer: the written blocks tile it. -/
theorem final (c : Dev nD) : (dats m 0 c).arrAt 3 cfg0.N = layer m c :=
  (dats m 0 c).arrAt_eq_of_cover 3 (layer m c) (flushed_eq m c) fun i => by
    have hi0 : (i 0).val < 4096 := (i 0).isLt
    have hi1 : (i 1).val < 4096 := (i 1).isLt
    have hlt : 32 * ((i 0).val / 1024) + 8 * ((i 1).val / 1024) + 7 < cfg0.N := by
      rw [show cfg0.N = 128 from N_0]; omega
    refine ⟨⟨32 * ((i 0).val / 1024) + 8 * ((i 1).val / 1024) + 7, hlt⟩, (flush0_3 _).mpr (by
      show (32 * ((i 0).val / 1024) + 8 * ((i 1).val / 1024) + 7) % 8 = 7
      omega), ?_⟩
    obtain ⟨e0, e1⟩ := where_out ⟨32 * ((i 0).val / 1024) + 8 * ((i 1).val / 1024) + 7, hlt⟩
    have e0' : win0_3.index ⟨32 * ((i 0).val / 1024) + 8 * ((i 1).val / 1024) + 7, hlt⟩ (0 : Fin 2)
        = (32 * ((i 0).val / 1024) + 8 * ((i 1).val / 1024) + 7) / 32 := e0
    have e1' : win0_3.index ⟨32 * ((i 0).val / 1024) + 8 * ((i 1).val / 1024) + 7, hlt⟩ (1 : Fin 2)
        = (32 * ((i 0).val / 1024) + 8 * ((i 1).val / 1024) + 7) / 8 % 4 := e1
    show i ∈ ((View.whole main_v0).slice (win0_3.rect ⟨32 * ((i 0).val / 1024) + 8 * ((i 1).val / 1024) + 7, hlt⟩)).set
    rw [View.set_slice_whole, Rect.mem_set_unit]
    intro a
    match a with
    | ⟨0, _⟩ =>
      show win0_3.index ⟨32 * ((i 0).val / 1024) + 8 * ((i 1).val / 1024) + 7, hlt⟩ (0 : Fin 2) * 1024 ≤ (i 0).val
        ∧ (i 0).val < win0_3.index ⟨32 * ((i 0).val / 1024) + 8 * ((i 1).val / 1024) + 7, hlt⟩ (0 : Fin 2) * 1024 + 1024
      omega
    | ⟨1, _⟩ =>
      show win0_3.index ⟨32 * ((i 0).val / 1024) + 8 * ((i 1).val / 1024) + 7, hlt⟩ (1 : Fin 2) * 1024 ≤ (i 1).val
        ∧ (i 1).val < win0_3.index ⟨32 * ((i 0).val / 1024) + 8 * ((i 1).val / 1024) + 7, hlt⟩ (1 : Fin 2) * 1024 + 1024
      omega

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0)
        = dense (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.Reference.lean ====
/-
  The reference computes the layer: its product of the weight with the mask, contracted with x over the shared
  coordinate, is at entry (b, o) the sum over i of x(b, i) · (w(o, i) · k(o, i)).
-/
import proofs.«144180_j12120397709336_1_alg».proof.Proof.Gen.ReferenceIdeal.Read
import proofs.«144180_j12120397709336_1_alg».proof.Proof.Spec

noncomputable section

open scoped BigOperators

namespace Cert.ReferenceIdeal.Layer

open Cert.ReferenceIdeal Cert.MaskedDense Idealize.ShloMosaic Idealize.ShloMosaic.ValueIdx

/-- The reference's result is the layer of its three arguments. -/
theorem result_eq (x w k : (⟨S4096x8192, .f32⟩ : BufTy).Contents (Elt Ideal)) :
    Read.val_main_v1 (F := Ideal) x w k = dense x w k := by
  funext i
  obtain ⟨b, o, rfl⟩ : ∃ (b o : Fin 4096), i = ix2 b o := ⟨i 0, i 1, eq_ix2 i⟩
  have hl : ∀ s : Fin 8192, Read.lidx_main_v1 (ix2 b o) s = ix2 b s := fun s => funext fun a => by
    match a with
    | ⟨0, _⟩ => rfl
    | ⟨1, _⟩ => rfl
  have hr : ∀ s : Fin 8192, Read.ridx_main_v1 (ix2 b o) s = ix2 o s := fun s => funext fun a => by
    match a with
    | ⟨0, _⟩ => rfl
    | ⟨1, _⟩ => rfl
  rw [Read.val_main_v1_apply]
  show _ = ∑ s : Fin 8192, x (ix2 b s) * (w (ix2 o s) * k (ix2 o s))
  refine Finset.sum_congr rfl fun s _ => ?_
  rw [hl, hr]
  rfl

end Cert.ReferenceIdeal.Layer

end
-- ==== Proof.lean ====
/-
  A masked dense layer against its reference, over the extended reals.

  Both programs compute out(b, o) = Σ_i x(b, i) · (w(o, i) · k(o, i)) for x, w, k of shape 4096 × 8192. The reference
  multiplies the weight by the mask and contracts with x over all 8192 shared coordinates at once. The kernel walks a
  4 × 4 × 8 grid: for each of the sixteen 1024 × 1024 output blocks it runs through the eight stretches of 1024 shared
  coordinates, resetting an accumulator at the first stretch, adding at each stretch the product of the three blocks it
  has fetched (narrowed to a shorter float format first, which over the extended reals changes nothing), and copying the
  accumulator into the output block at the last stretch.

  The two agree because a sum over 8192 coordinates is the sum, over the eight stretches, of the sums over each
  stretch's 1024 offsets: a re-indexing that uses only that addition is commutative and associative, so it holds on the
  extended reals without assuming the inputs finite. The steps: the body's stored values at an entry (Entry), what each
  control case leaves (Cases), where each block sits (Blocks), the accumulator after a point as zero plus the shares of
  its run's points and, at a run's end, the layer's entry (Fold), the written blocks tiling the result array (Final),
  and the reference's two operations read at an entry (Reference).

  The three programs run and leave their arguments unchanged: the two kernels by their frames, the reference by its
  run. No operation was rewritten in passing to the idealized kernel, so there is nothing to preserve.
-/
import proofs.«144180_j12120397709336_1_alg».proof.Defs
import proofs.«144180_j12120397709336_1_alg».proof.Proof.Gen.Kernel
import proofs.«144180_j12120397709336_1_alg».proof.Proof.Gen.Kernel.Skeleton
import proofs.«144180_j12120397709336_1_alg».proof.Proof.Gen.Kernel.Launch
import proofs.«144180_j12120397709336_1_alg».proof.Proof.Gen.Kernel.Points
import proofs.«144180_j12120397709336_1_alg».proof.Proof.Gen.Kernel.Frame
import proofs.«144180_j12120397709336_1_alg».proof.Proof.Gen.KernelIdeal
import proofs.«144180_j12120397709336_1_alg».proof.Proof.Gen.KernelIdeal.Skeleton
import proofs.«144180_j12120397709336_1_alg».proof.Proof.Gen.KernelIdeal.Launch
import proofs.«144180_j12120397709336_1_alg».proof.Proof.Gen.KernelIdeal.Points
import proofs.«144180_j12120397709336_1_alg».proof.Proof.Gen.KernelIdeal.Frame
import proofs.«144180_j12120397709336_1_alg».proof.Proof.Gen.ReferenceIdeal
import proofs.«144180_j12120397709336_1_alg».proof.Proof.Gen.Pre_finite_inputs
import proofs.«144180_j12120397709336_1_alg».proof.Proof.Gen.KernelIdeal.Value
import proofs.«144180_j12120397709336_1_alg».proof.Proof.Gen.ReferenceIdeal.Run
import proofs.«144180_j12120397709336_1_alg».proof.Proof.Gen.ReferenceIdeal.Read
import proofs.«144180_j12120397709336_1_alg».proof.Proof.Final
import proofs.«144180_j12120397709336_1_alg».proof.Proof.Reference
import Idealize.ShloMosaic.Adequacy
import Idealize.ShloMosaic.Init

noncomputable section

namespace Cert.Proof

open Idealize.ShloMosaic Idealize.ShloMosaic.TcCoe Idealize.SL.Sem Cert.MaskedDense

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with the layer of those arguments. -/
theorem algebraic : Cert.algebraic_KernelIdeal_ReferenceIdeal := by
  intro m ρ m' ρ' _ hagree
  refine ⟨fun c => dense (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Layer.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
